-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg6 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg6
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S64x4096 .f32) (main_arg1 : FVec F S64x4096 .f32) (main_arg2 : FVec F S64x4096 .f32) (main_arg3 : FVec F S4096x4096 .f32) (main_arg4 : FVec F S4096x4096 .f32) (main_arg5 : IVec S4096x4096 1) (main_arg6 : FVec F S4096x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg6 main_v13 main_v16
-- ==== Kernel.lean ====
abbrev S64x4096 : Shape := ⟨2, ![64, 4096]⟩
abbrev S4096x4096 : Shape := ⟨2, ![4096, 4096]⟩
abbrev S4096x64 : Shape := ⟨2, ![4096, 64]⟩
abbrev S_ : Shape := ⟨0, ![]⟩
abbrev S4096 : Shape := ⟨1, ![4096]⟩
abbrev S1x4096 : Shape := ⟨2, ![1, 4096]⟩
abbrev S512x512 : Shape := ⟨2, ![512, 512]⟩
abbrev S512x64 : Shape := ⟨2, ![512, 64]⟩
abbrev S64x512 : Shape := ⟨2, ![64, 512]⟩
abbrev S1x512 : Shape := ⟨2, ![1, 512]⟩

abbrev nBuf : Space → Nat
  | .hbm => 25
  | .vmem => 24
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S4096x4096, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S64x4096, .f32⟩
  | .hbm, ⟨8, _⟩ => ⟨S4096x64, .f32⟩
  | .hbm, ⟨9, _⟩ => ⟨S4096x64, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S4096x4096, .i32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S4096x4096, .i1⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .i32⟩
  | .local _ .vmem, ⟨5, _⟩ => ⟨S512x512, .i32⟩
  | .local _ .vmem, ⟨6, _⟩ => ⟨S512x512, .f32⟩
  | .local _ .vmem, ⟨7, _⟩ => ⟨S512x512, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S64x512, .f32⟩
  | .local _ .vmem, ⟨13, _⟩ => ⟨S64x512, .f32⟩
  | .local _ .vmem, ⟨14, _⟩ => ⟨S1x512, .f32⟩
  | .local _ .vmem, ⟨15, _⟩ => ⟨S1x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .i32⟩
  | .local _ .vmem, ⟨23, _⟩ => ⟨S512x512, .i32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S64x4096_S4096x64_1_0 : S64x4096.Transposes [1, 0] S4096x64
  reducesTo_S64x4096_S4096_d0 : S64x4096.ReducesTo [0] S4096
  h_S_ : 0 < S_.numel
  bcast_S_S4096 : S_.BroadcastsInDim S4096 (![] : Fin 0 → Fin S4096.rank)
  shapeCasts_S4096_S1x4096 : S4096.ShapeCasts S1x4096
  natLt_1_32 : 1 < 32
  inb_S512x512_S512x512_0_0 : ∀ a, (![0, 0] : Fin 2 → Nat) a + S512x512.size a ≤ S512x512.size a
  h_S512x512 : 0 < S512x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  bcast_S_S4096x4096 : S_.BroadcastsInDim S4096x4096 (![] : Fin 0 → Fin S4096x4096.rank)
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .i32 = 32 ∨ (Rect.block (s := S4096x4096) S512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S4096x64.size a
  hwx0_4 : ∀ i : grid0.Coords, EltTy.bits .f32 = 32 ∨ (Rect.block (s := S4096x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S4096x64.size a
  hwx0_5 : ∀ i : grid0.Coords, EltTy.bits .f32 = 32 ∨ (Rect.block (s := S4096x64) S512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x4096.size a
  hwx0_6 : ∀ i : grid0.Coords, EltTy.bits .f32 = 32 ∨ (Rect.block (s := S64x4096) S64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x4096.size a
  hwx0_8 : ∀ i : grid0.Coords, EltTy.bits .f32 = 32 ∨ (Rect.block (s := S4096x4096) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x4096.size a
  hwx0_9 : ∀ i : grid0.Coords, EltTy.bits .f32 = 32 ∨ (Rect.block (s := S4096x4096) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .f32 = 32 ∨ (Rect.block (s := S4096x4096) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S4096x4096.size a
  hwx0_11 : ∀ i : grid0.Coords, EltTy.bits .i32 = 32 ∨ (Rect.block (s := S4096x4096) S512x512.size (cc0_transform_11 i) (hinb0_11 i)).WholeWords (EltTy.packing .i32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg3) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S64x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_2) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_3) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S4096x4096, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S64x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .i1⟩
  | .hbm, ⟨54, _⟩ => ⟨S4096x4096, .i1⟩
  | .hbm, ⟨55, _⟩ => ⟨S4096x4096, .i1⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .i1⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .i1⟩
  | .hbm, ⟨65, _⟩ => ⟨S4096x4096, .i1⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S4096x4096, .i1⟩
  | .hbm, ⟨70, _⟩ => ⟨S4096x4096, .i1⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S64x4096_S4096_d0 : S64x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S64x4096_S64x4096_S4096x4096_0_0_1_1_n_n_wf : DotDims.WF S64x4096 S64x4096 S4096x4096 [0] [0] [1] [1] [] []

variable [Facts₀]

def dot_S64x4096_S64x4096_S4096x4096_0_0_1_1_n_n : DotDims S64x4096 S64x4096 S4096x4096 where
  lhsContracting := [0]
  rhsContracting := [0]
  lhsNonContracting := [1]
  rhsNonContracting := [1]
  lhsBatch := []
  rhsBatch := []
  wf := dot_S64x4096_S64x4096_S4096x4096_0_0_1_1_n_n_wf

class Facts : Prop extends Facts₀ where

variable [Facts]
-- ==== Proof.Spec.lean ====
/-
  The plasticity step, one synapse at a time, over the extended reals.

  For a synapse (p, q) with weight `w`, age `a`, connection bit `b` and a fresh random weight `r`:
  * the presynaptic mean of column q is `avg q = (0 + Σ_k pre[k, q]) / 64`;
  * the Hebbian sum is `heb p q = Σ_k (post[k, p] · contrib[k, p]) · pre[k, q]` and the correlation sum
    `cor p q = Σ_k post[k, p] · pre[k, q]` (both over the 64 samples of the batch);
  * the updated weight is `w + (η' · heb + ((μ' · |w|) · w) · avg) · b`, clipped to [-1, 1] and gated by `b` again;
  * a connection forms where `cor / 64 > 1/2` and there was none; a formed one starts at `r · s`;
  * a live connection (old or formed) whose weight is below `s` in magnitude is eliminated: weight 0, mask 0;
  * the energy cost is `(γ · |w|) · |avg|` and the age advances by `b`.
  The float literals stay the words the programs print (both programs print the same ones); only 64 and 1/64 are
  ever evaluated (`Consts`).
-/
import Idealize.ShloMosaic.PureOps.Ideal
import Idealize.ShloMosaic.PureOps.Ideal.Laws
import Idealize.ShloMosaic.Lib.ValueIdx

noncomputable section

namespace Cert.Plasticity

open Idealize.ShloMosaic Idealize.ShloMosaic.ValueIdx

/-- The synapse matrix's shape and the activity batches' shape. -/
abbrev SNN : Shape := ⟨2, ![4096, 4096]⟩
abbrev SBN : Shape := ⟨2, ![64, 4096]⟩

/-! ## The constants, as the words both programs carry -/

/-- learning rate over the batch size, f32(0.01 / 64) -/
def lrPerSample : EReal := Ideal.ofBits .f32 0x3923D70A#32
/-- minus the metabolic rate times the cost rate, f32(-0.005) -/
def decay : EReal := Ideal.ofBits .f32 0xBBA3D70A#32
/-- the cost rate, f32(0.05) -/
def costRate : EReal := Ideal.ofBits .f32 0x3D4CCCCD#32
/-- f32(0.01): the scale of a newly formed weight, and the elimination threshold (one word) -/
def small : EReal := Ideal.ofBits .f32 0x3C23D70A#32
/-- the formation threshold 1/2 -/
def formAt : EReal := Ideal.ofBits .f32 0x3F000000#32
/-- the clip bounds -1 and 1, the zero weight, and the batch size 64 -/
def clipLo : EReal := Ideal.ofBits .f32 0xBF800000#32
def clipHi : EReal := Ideal.ofBits .f32 0x3F800000#32
def zeroWeight : EReal := Ideal.ofBits .f32 0x00000000#32
def batch : EReal := Ideal.ofBits .f32 0x42800000#32

/-! ## One synapse -/

/-- A connection bit as a number: 0 or 1. -/
def bitVal (b : BitVec 1) : EReal := ((b.toNat : ℝ) : EReal)

/-- The magnitude of an extended real. -/
def mag (x : EReal) : EReal := max x (-x)

/-- Hebbian growth plus metabolic decay, applied where connected, clipped, and gated again. -/
def updated (w h a : EReal) (b : BitVec 1) : EReal :=
  min clipHi (max clipLo (w + (lrPerSample * h + ((decay * mag w) * w) * a) * bitVal b)) * bitVal b

/-- A new connection forms where the mean correlation exceeds the threshold and there was no connection. -/
def formed (s : EReal) (b : BitVec 1) : BitVec 1 := Ideal.cmp .ogt (Ideal.div s batch) formAt &&& ~~~b

/-- The weight before elimination: a formed connection starts at a scaled random weight. -/
def candidate (w h a s r : EReal) (b : BitVec 1) : EReal :=
  Scalar.select (formed s b) (r * small) (updated w h a b)

/-- The connections after formation. -/
def live (s : EReal) (b : BitVec 1) : BitVec 1 := b ||| formed s b

/-- A live connection with a small weight is eliminated. -/
def weak (w h a s r : EReal) (b : BitVec 1) : BitVec 1 :=
  Ideal.cmp .olt (mag (candidate w h a s r b)) small &&& live s b

/-- The new weight. -/
def newWeight (w h a s r : EReal) (b : BitVec 1) : EReal :=
  Scalar.select (weak w h a s r b) zeroWeight (candidate w h a s r b)

/-- The new connection bit. -/
def newMask (w h a s r : EReal) (b : BitVec 1) : BitVec 1 := live s b &&& ~~~(weak w h a s r b)

/-- The energy cost. -/
def energy (w a : EReal) : EReal := (costRate * mag w) * mag a

/-- The new age. -/
def newAge (t : EReal) (b : BitVec 1) : EReal := t + bitVal b

/-! ## The three sums over the batch -/

/-- The presynaptic mean of column `q`. -/
def avgPre (pre : SBN.Idx → EReal) (q : Fin 4096) : EReal :=
  Ideal.div (zeroWeight + ∑ k : Fin 64, pre (ix2 k q)) batch

/-- The Hebbian sum at (p, q). -/
def hebSum (post contrib pre : SBN.Idx → EReal) (p q : Fin 4096) : EReal :=
  ∑ k : Fin 64, (post (ix2 k p) * contrib (ix2 k p)) * pre (ix2 k q)

/-- The correlation sum at (p, q). -/
def corSum (post pre : SBN.Idx → EReal) (p q : Fin 4096) : EReal :=
  ∑ k : Fin 64, post (ix2 k p) * pre (ix2 k q)

/-! ## The four result arrays as functions of the argument arrays -/

def weightsOut (pre post contrib : SBN.Idx → EReal) (w r : SNN.Idx → EReal) (cn : SNN.Idx → BitVec 1) : SNN.Idx → EReal :=
  fun i => newWeight (w i) (hebSum post contrib pre (i 0) (i 1)) (avgPre pre (i 1)) (corSum post pre (i 0) (i 1)) (r i) (cn i)

def energyOut (pre : SBN.Idx → EReal) (w : SNN.Idx → EReal) : SNN.Idx → EReal :=
  fun i => energy (w i) (avgPre pre (i 1))

def ageOut (t : SNN.Idx → EReal) (cn : SNN.Idx → BitVec 1) : SNN.Idx → EReal :=
  fun i => newAge (t i) (cn i)

def maskOut (pre post contrib : SBN.Idx → EReal) (w r : SNN.Idx → EReal) (cn : SNN.Idx → BitVec 1) : SNN.Idx → BitVec 1 :=
  fun i => newMask (w i) (hebSum post contrib pre (i 0) (i 1)) (avgPre pre (i 1)) (corSum post pre (i 0) (i 1)) (r i) (cn i)

end Cert.Plasticity

end
-- ==== Proof.Consts.lean ====
/-
  The few facts about words that the two programs do not share: a connection bit carried as a 32-bit word and
  back, a bit complemented by exclusive-or with one, and the reciprocal 1/64 against a division by 64.
-/
import proofs.«131572_j3633542332471_1_alg».proof.Proof.Spec

noncomputable section

namespace Cert.Plasticity

open Idealize.ShloMosaic

/-- A bit widened to a word is nonzero exactly when the bit is set. -/
theorem word_ne_zero (b : BitVec 1) : IntOp.cmpi .ne (b.setWidth 32) 0#32 = b := by
  revert b; decide

/-- Exclusive-or with the set bit complements a bit. -/
theorem xor_one (b : BitVec 1) : IntOp.xori b 1#1 = ~~~b := by
  revert b; decide

/-- A bit widened to a word, read as a signed integer, is the bit's number. -/
theorem word_toInt (b : BitVec 1) : (((b.setWidth 32).toInt : ℝ) : EReal) = bitVal b := by
  unfold bitVal
  have h : (b.setWidth 32).toInt = (b.toNat : ℤ) := by revert b; decide
  rw [h]; norm_cast

/-- The word 0x42800000 is 64. -/
theorem batch_eq : batch = ((64 : ℝ) : EReal) := by
  unfold batch
  simp [Ideal.ofBits, Ideal.ieee, -EReal.coe_mul]; norm_num

/-- The word 0x3C800000 is 1/64. -/
theorem inv_batch_eq : Ideal.ofBits .f32 0x3C800000#32 = ((1 / 64 : ℝ) : EReal) := by
  simp [Ideal.ofBits, Ideal.ieee, -EReal.coe_mul]; norm_num

/-- Multiplying by the word 1/64 is dividing by the word 64, on every extended real. -/
theorem scale_eq_div (s : EReal) : Ideal.ofBits .f32 0x3C800000#32 * s = Ideal.div s batch := by
  rw [inv_batch_eq, batch_eq, Ideal.div_coe (by norm_num : (64 : ℝ) ≠ 0), mul_comm]

/-- The same two facts in the spelling the programs' operations have before they are read as extended-real arithmetic. -/
theorem conn_val (b : BitVec 1) : FloatOps.sitofp (F := Ideal) .f32 (b.setWidth 32) = bitVal b := word_toInt b

theorem conn_val_unsigned (b : BitVec 1) : FloatOps.uitofp (F := Ideal) .f32 b = bitVal b := rfl

theorem scale_eq_div' (s : EReal) :
    FloatOps.mulf (F := Ideal) (φ := .f32) (FloatOps.ofBits .f32 0x3C800000#32) s = Ideal.div s batch := scale_eq_div s

end Cert.Plasticity

end
-- ==== Proof.KernelBlocks.lean ====
/-
  The arrays the kernel's region finds, and each window's block at a grid point read off them.

  Before the region the host has written: post · contrib transposed, post transposed, the presynaptic column means as one
  row, and the connection bits widened to words. At grid point (I, J) the output blocks are rows 512·I … 512·I + 511 and
  columns 512·J … 512·J + 511 of their arrays; the weight, age, connection and random blocks sit at the same place, the two
  transposed activity blocks at rows 512·I … of all 64 columns, the presynaptic block and the mean row at columns 512·J … .
  So entry (p, q) of a block is entry (512·I + p, 512·J + q) of the synapse arrays, row p of a transposed activity block is
  column 512·I + p of the activity array, and column q of the presynaptic block is column 512·J + q.
-/
import proofs.«131572_j3633542332471_1_alg».proof.Proof.Gen.KernelIdeal.Frame
import proofs.«131572_j3633542332471_1_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx Cert.Plasticity
open Idealize.ShloMosaic.Pipeline (Dat)

variable (m : (ℓ : Loc nD τ sig) → Buf (Elt Ideal) ℓ)

/-! ## The argument arrays, by name -/

abbrev pre (c : Dev nD) : S64x4096.Idx → EReal := m ((c : Thread nD τ).loc main_arg0)
abbrev post (c : Dev nD) : S64x4096.Idx → EReal := m ((c : Thread nD τ).loc main_arg1)
abbrev contrib (c : Dev nD) : S64x4096.Idx → EReal := m ((c : Thread nD τ).loc main_arg2)
abbrev weights (c : Dev nD) : S4096x4096.Idx → EReal := m ((c : Thread nD τ).loc main_arg3)
abbrev age (c : Dev nD) : S4096x4096.Idx → EReal := m ((c : Thread nD τ).loc main_arg4)
abbrev conn (c : Dev nD) : S4096x4096.Idx → BitVec 1 := m ((c : Thread nD τ).loc main_arg5)
abbrev rand (c : Dev nD) : S4096x4096.Idx → EReal := m ((c : Thread nD τ).loc main_arg6)

/-! ## The host stretch before the region -/

/-- post · contrib, transposed. -/
theorem V_pcT (c : Dev nD) : V m c main_v1
    = (transpose S4096x64 [1, 0] (mulf (F := Ideal) (s := S64x4096) (φ := .f32) (post m c) (contrib m c)) transposes_S64x4096_S4096x64_1_0 : S4096x64.Idx → EReal) := by
  show StableHlo.after hostOps0 (fun b => m (c, b)) (Proc.devRef .tc main_v1) = _
  after_results
  try rfl

/-- post, transposed. -/
theorem V_postT (c : Dev nD) : V m c main_v2
    = (transpose S4096x64 [1, 0] (post m c) transposes_S64x4096_S4096x64_1_0 : S4096x64.Idx → EReal) := by
  show StableHlo.after hostOps0 (fun b => m (c, b)) (Proc.devRef .tc main_v2) = _
  after_results
  try rfl

/-- The connection bits widened to words. -/
theorem V_connWords (c : Dev nD) : V m c main_v7
    = (extui 32 (conn m c) natLt_1_32 : S4096x4096.Idx → BitVec 32) := by
  show StableHlo.after hostOps0 (fun b => m (c, b)) (Proc.devRef .tc main_v7) = _
  after_results
  try rfl

/-- The column sums of pre over 64, as one row. -/
theorem V_meanRow (c : Dev nD) : V m c main_v6
    = (shapeCast S1x4096 (Host.divf (Host.reduceAdd (pre m c) (constant (F := Ideal) S_ .f32 0x00000000#32) reducesTo_S64x4096_S4096_d0 h_S_)
        (broadcastInDim S4096 ![] bcast_S_S4096 (constant (F := Ideal) S_ .f32 0x42800000#32))) shapeCasts_S4096_S1x4096 : S1x4096.Idx → EReal) := by
  show StableHlo.after hostOps0 (fun b => m (c, b)) (Proc.devRef .tc main_v6) = _
  after_results
  try rfl

/-! ## Where each window's block sits, over the 64 grid points -/

/-- The four 512 × 512 input windows sit at the output's block index. -/
theorem idx_synapse : ∀ t : Fin cfg0.N,
    win0_0.index t (0 : Fin 2) = win0_8.index t (0 : Fin 2) ∧ win0_0.index t (1 : Fin 2) = win0_8.index t (1 : Fin 2)
    ∧ win0_1.index t (0 : Fin 2) = win0_8.index t (0 : Fin 2) ∧ win0_1.index t (1 : Fin 2) = win0_8.index t (1 : Fin 2)
    ∧ win0_2.index t (0 : Fin 2) = win0_8.index t (0 : Fin 2) ∧ win0_2.index t (1 : Fin 2) = win0_8.index t (1 : Fin 2)
    ∧ win0_3.index t (0 : Fin 2) = win0_8.index t (0 : Fin 2) ∧ win0_3.index t (1 : Fin 2) = win0_8.index t (1 : Fin 2) :=
  (by decide +kernel : ∀ t : Fin grid0.N, _)

/-- The two transposed activity windows follow the output's row block; the presynaptic window and the mean row its
    column block. -/
theorem idx_activity : ∀ t : Fin cfg0.N,
    win0_4.index t (0 : Fin 2) = win0_8.index t (0 : Fin 2) ∧ win0_4.index t (1 : Fin 2) = 0
    ∧ win0_5.index t (0 : Fin 2) = win0_8.index t (0 : Fin 2) ∧ win0_5.index t (1 : Fin 2) = 0
    ∧ win0_6.index t (0 : Fin 2) = 0 ∧ win0_6.index t (1 : Fin 2) = win0_8.index t (1 : Fin 2)
    ∧ win0_7.index t (0 : Fin 2) = 0 ∧ win0_7.index t (1 : Fin 2) = win0_8.index t (1 : Fin 2) :=
  (by decide +kernel : ∀ t : Fin grid0.N, _)

/-- The four output windows share one block index, inside the 8 × 8 grid of blocks. -/
theorem idx_outputs : ∀ t : Fin cfg0.N,
    win0_9.index t (0 : Fin 2) = win0_8.index t (0 : Fin 2) ∧ win0_9.index t (1 : Fin 2) = win0_8.index t (1 : Fin 2)
    ∧ win0_10.index t (0 : Fin 2) = win0_8.index t (0 : Fin 2) ∧ win0_10.index t (1 : Fin 2) = win0_8.index t (1 : Fin 2)
    ∧ win0_11.index t (0 : Fin 2) = win0_8.index t (0 : Fin 2) ∧ win0_11.index t (1 : Fin 2) = win0_8.index t (1 : Fin 2)
    ∧ win0_8.index t (0 : Fin 2) ≤ 7 ∧ win0_8.index t (1 : Fin 2) ≤ 7 :=
  (by decide +kernel : ∀ t : Fin grid0.N, _)

/-- Every block index of the 8 × 8 grid is some point's. -/
theorem idx_onto : ∀ (a b : Fin 8), ∃ t : Fin cfg0.N, win0_8.index t (0 : Fin 2) = a.val ∧ win0_8.index t (1 : Fin 2) = b.val :=
  (by decide +kernel : ∀ (a b : Fin 8), ∃ t : Fin grid0.N, win0_8.index t (0 : Fin 2) = a.val ∧ win0_8.index t (1 : Fin 2) = b.val)

/-! ## The input blocks as entries of the arguments -/

/-- The weight block. -/
theorem weightBlk_at (c : Dev nD) (t : Fin cfg0.N) (p q : Fin 512) (P Q : Fin 4096)
    (hP : P.val = win0_8.index t (0 : Fin 2) * 512 + p.val) (hQ : Q.val = win0_8.index t (1 : Fin 2) * 512 + q.val) :
    (iblk m c 0 t : Vec Ideal S512x512 .f32) (ix2 p q) = weights m c (ix2 P Q) := by
  obtain ⟨e0, e1, -⟩ := idx_synapse t
  unfold iblk
  rw [View.read_apply]
  show V m c main_arg3 _ = _
  rw [V_main_arg3]
  refine congrArg _ (funext fun a => Fin.ext ?_)
  match a with
  | ⟨0, _⟩ => show win0_0.index t (0 : Fin 2) * 512 + 1 * p.val = P.val; omega
  | ⟨1, _⟩ => show win0_0.index t (1 : Fin 2) * 512 + 1 * q.val = Q.val; omega

/-- The age block. -/
theorem ageBlk_at (c : Dev nD) (t : Fin cfg0.N) (p q : Fin 512) (P Q : Fin 4096)
    (hP : P.val = win0_8.index t (0 : Fin 2) * 512 + p.val) (hQ : Q.val = win0_8.index t (1 : Fin 2) * 512 + q.val) :
    (iblk m c 1 t : Vec Ideal S512x512 .f32) (ix2 p q) = age m c (ix2 P Q) := by
  obtain ⟨-, -, e0, e1, -⟩ := idx_synapse t
  unfold iblk
  rw [View.read_apply]
  show V m c main_arg4 _ = _
  rw [V_main_arg4]
  refine congrArg _ (funext fun a => Fin.ext ?_)
  match a with
  | ⟨0, _⟩ => show win0_1.index t (0 : Fin 2) * 512 + 1 * p.val = P.val; omega
  | ⟨1, _⟩ => show win0_1.index t (1 : Fin 2) * 512 + 1 * q.val = Q.val; omega

/-- The random-weight block. -/
theorem randBlk_at (c : Dev nD) (t : Fin cfg0.N) (p q : Fin 512) (P Q : Fin 4096)
    (hP : P.val = win0_8.index t (0 : Fin 2) * 512 + p.val) (hQ : Q.val = win0_8.index t (1 : Fin 2) * 512 + q.val) :
    (iblk m c 3 t : Vec Ideal S512x512 .f32) (ix2 p q) = rand m c (ix2 P Q) := by
  obtain ⟨-, -, -, -, -, -, e0, e1⟩ := idx_synapse t
  unfold iblk
  rw [View.read_apply]
  show V m c main_arg6 _ = _
  rw [V_main_arg6]
  refine congrArg _ (funext fun a => Fin.ext ?_)
  match a with
  | ⟨0, _⟩ => show win0_3.index t (0 : Fin 2) * 512 + 1 * p.val = P.val; omega
  | ⟨1, _⟩ => show win0_3.index t (1 : Fin 2) * 512 + 1 * q.val = Q.val; omega

/-- The connection block: the bits, each widened to a word. -/
theorem connBlk_at (c : Dev nD) (t : Fin cfg0.N) (p q : Fin 512) (P Q : Fin 4096)
    (hP : P.val = win0_8.index t (0 : Fin 2) * 512 + p.val) (hQ : Q.val = win0_8.index t (1 : Fin 2) * 512 + q.val) :
    (iblk m c 2 t : Vec Ideal S512x512 .i32) (ix2 p q)
      = (conn m c (ix2 P Q)).setWidth 32 := by
  obtain ⟨-, -, -, -, e0, e1, -⟩ := idx_synapse t
  unfold iblk
  rw [View.read_apply]
  show V m c main_v7 _ = _
  rw [V_connWords, extui_apply]
  refine congrArg (fun z : BitVec 1 => z.setWidth 32) (congrArg _ (funext fun a => Fin.ext ?_))
  match a with
  | ⟨0, _⟩ => show win0_2.index t (0 : Fin 2) * 512 + 1 * p.val = P.val; omega
  | ⟨1, _⟩ => show win0_2.index t (1 : Fin 2) * 512 + 1 * q.val = Q.val; omega

/-- Row p of the transposed post · contrib block is column 512·I + p of post · contrib. -/
theorem pcBlk_at (c : Dev nD) (t : Fin cfg0.N) (p : Fin 512) (k : Fin 64) (P : Fin 4096)
    (hP : P.val = win0_8.index t (0 : Fin 2) * 512 + p.val) :
    (iblk m c 4 t : Vec Ideal S512x64 .f32) (ix2 p k)
      = post m c (ix2 k P) * contrib m c (ix2 k P) := by
  obtain ⟨e0, e1, -⟩ := idx_activity t
  unfold iblk
  rw [View.read_apply]
  show V m c main_v1 _ = _
  rw [V_pcT]
  have hi : ((cfg0.win 4).blk t).view.emb (ix2 p k) = ix2 P k := funext fun a => Fin.ext (by
    match a with
    | ⟨0, _⟩ => show win0_4.index t (0 : Fin 2) * 512 + 1 * p.val = P.val; omega
    | ⟨1, _⟩ => show win0_4.index t (1 : Fin 2) * 64 + 1 * k.val = k.val; omega)
  rw [hi, transpose_ix2_apply]
  rfl

/-- Row p of the transposed post block is column 512·I + p of post. -/
theorem postBlk_at (c : Dev nD) (t : Fin cfg0.N) (p : Fin 512) (k : Fin 64) (P : Fin 4096)
    (hP : P.val = win0_8.index t (0 : Fin 2) * 512 + p.val) :
    (iblk m c 5 t : Vec Ideal S512x64 .f32) (ix2 p k) = post m c (ix2 k P) := by
  obtain ⟨-, -, e0, e1, -⟩ := idx_activity t
  unfold iblk
  rw [View.read_apply]
  show V m c main_v2 _ = _
  rw [V_postT]
  have hi : ((cfg0.win 5).blk t).view.emb (ix2 p k) = ix2 P k := funext fun a => Fin.ext (by
    match a with
    | ⟨0, _⟩ => show win0_5.index t (0 : Fin 2) * 512 + 1 * p.val = P.val; omega
    | ⟨1, _⟩ => show win0_5.index t (1 : Fin 2) * 64 + 1 * k.val = k.val; omega)
  rw [hi, transpose_ix2_apply]

/-- Column q of the presynaptic block is column 512·J + q of pre. -/
theorem preBlk_at (c : Dev nD) (t : Fin cfg0.N) (k : Fin 64) (q : Fin 512) (Q : Fin 4096)
    (hQ : Q.val = win0_8.index t (1 : Fin 2) * 512 + q.val) :
    (iblk m c 6 t : Vec Ideal S64x512 .f32) (ix2 k q) = pre m c (ix2 k Q) := by
  obtain ⟨-, -, -, -, e0, e1, -⟩ := idx_activity t
  unfold iblk
  rw [View.read_apply]
  show V m c main_arg0 _ = _
  rw [V_main_arg0]
  refine congrArg _ (funext fun a => Fin.ext ?_)
  match a with
  | ⟨0, _⟩ => show win0_6.index t (0 : Fin 2) * 64 + 1 * k.val = k.val; omega
  | ⟨1, _⟩ => show win0_6.index t (1 : Fin 2) * 512 + 1 * q.val = Q.val; omega

/-- The column sums over 64, at column Q, are the presynaptic mean. -/
theorem colMean_apply (x0 : FVec Ideal S64x4096 .f32) (Q : Fin 4096) :
    Host.divf (Host.reduceAdd x0 (constant (F := Ideal) S_ .f32 0x00000000#32) reducesTo_S64x4096_S4096_d0 h_S_)
        (broadcastInDim S4096 ![] bcast_S_S4096 (constant (F := Ideal) S_ .f32 0x42800000#32)) (ix1 Q) = avgPre x0 Q := by
  show FloatOps.hostDivf (Host.reduceAdd x0 (constant (F := Ideal) S_ .f32 0x00000000#32) reducesTo_S64x4096_S4096_d0 h_S_ (ix1 Q))
    (broadcastInDim S4096 ![] bcast_S_S4096 (constant (F := Ideal) S_ .f32 0x42800000#32) (ix1 Q)) = _
  rw [broadcastInDim_apply _ bcast_S_S4096 _ (ix1 Q) ix0 (fun a => a.elim0)]
  simp only [Host.reduceAdd, Ideal.hostReduceAdd_def]
  rw [Ideal.hostReduceAdd_single reducesTo_S64x4096_S4096_d0 (by decide)]
  unfold avgPre
  show Ideal.div (zeroWeight + _) batch = _
  refine congrArg (fun z => Ideal.div z batch) (congrArg (zeroWeight + ·) (Finset.sum_congr rfl fun k _ => ?_))
  exact congrArg x0 (funext fun a => Fin.ext (by match a with | ⟨0, _⟩ => rfl | ⟨1, _⟩ => rfl))

/-- Entry q of the mean-row block is the presynaptic mean of column 512·J + q. -/
theorem meanBlk_at (c : Dev nD) (t : Fin cfg0.N) (q : Fin 512) (Q : Fin 4096)
    (hQ : Q.val = win0_8.index t (1 : Fin 2) * 512 + q.val) :
    (iblk m c 7 t : Vec Ideal S1x512 .f32) (ix2 (0 : Fin 1) q) = avgPre (pre m c) Q := by
  obtain ⟨-, -, -, -, -, -, e0, e1⟩ := idx_activity t
  unfold iblk
  rw [View.read_apply]
  show V m c main_v6 _ = _
  rw [V_meanRow]
  have hi : ((cfg0.win 7).blk t).view.emb (ix2 (0 : Fin 1) q) = ix2 (0 : Fin 1) Q := funext fun a => Fin.ext (by
    match a with
    | ⟨0, _⟩ => show win0_7.index t (0 : Fin 2) * 1 + 1 * 0 = 0; omega
    | ⟨1, _⟩ => show win0_7.index t (1 : Fin 2) * 512 + 1 * q.val = Q.val; omega)
  rw [hi, shapeCast_a_1a_apply]
  exact colMean_apply (pre m c) Q

end Cert.KernelIdeal.Blocks

end
-- ==== Proof.KernelPoint.lean ====
/-
  What the kernel body leaves at ONE entry (p, q) of each output block, as the synapse functions of the entries of
  its input blocks: the weight, age, connection word and random blocks at (p, q), row p of the two transposed activity
  blocks against column q of the presynaptic block (two products over the 64 samples), and entry q of the mean row.
-/
import proofs.«131572_j3633542332471_1_alg».proof.Proof.Gen.KernelIdeal.Frame
import proofs.«131572_j3633542332471_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Point

open Cert.KernelIdeal Cert.KernelIdeal.Gen Idealize.ShloMosaic Idealize.ShloMosaic.ValueIdx Cert.Plasticity

/-! ## The block product at an entry -/

theorem lhs_row (i : S512x512.Idx) (k : dot_S512x64_S64x512_S512x512_1_0_0_1_n_n.contr.Idx) :
    (dot_S512x64_S64x512_S512x512_1_0_0_1_n_n.lhsIdx i k 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_sample (i : S512x512.Idx) (k : dot_S512x64_S64x512_S512x512_1_0_0_1_n_n.contr.Idx) :
    (dot_S512x64_S64x512_S512x512_1_0_0_1_n_n.lhsIdx i k 1).val = (k ⟨0, by decide⟩).val :=
  dot_S512x64_S64x512_S512x512_1_0_0_1_n_n.lhsIdx_val_of_single rfl i k
theorem rhs_sample (i : S512x512.Idx) (k : dot_S512x64_S64x512_S512x512_1_0_0_1_n_n.contr.Idx) :
    (dot_S512x64_S64x512_S512x512_1_0_0_1_n_n.rhsIdx i k 0).val = (k ⟨0, by decide⟩).val :=
  dot_S512x64_S64x512_S512x512_1_0_0_1_n_n.rhsIdx_val_of_single rfl i k
theorem rhs_col (i : S512x512.Idx) (k : dot_S512x64_S64x512_S512x512_1_0_0_1_n_n.contr.Idx) :
    (dot_S512x64_S64x512_S512x512_1_0_0_1_n_n.rhsIdx i k 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- A [512, 64] block times a [64, 512] block into a zero accumulator, at entry (p, q): the sum over the 64 samples of
    row p against column q. -/
theorem blockProduct_apply (a : FVec Ideal S512x64 .f32) (bm : FVec Ideal S64x512 .f32) (p q : Fin 512) :
    matmul dot_S512x64_S64x512_S512x512_1_0_0_1_n_n (some .fp32) a bm (constant S512x512 .f32 0x00000000#32) (ix2 p q)
      = ∑ k : Fin 64, a (ix2 p k) * bm (ix2 k q) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p q) ((contrEquiv1 dot_S512x64_S64x512_S512x512_1_0_0_1_n_n 64 rfl rfl).symm k) = ix2 p k := funext fun ax => Fin.ext (by
    match ax with
    | ⟨0, _⟩ => exact lhs_row _ _
    | ⟨1, _⟩ => exact (lhs_sample _ _).trans hk)
  have er : dot_S512x64_S64x512_S512x512_1_0_0_1_n_n.rhsIdx (ix2 p q) ((contrEquiv1 dot_S512x64_S64x512_S512x512_1_0_0_1_n_n 64 rfl rfl).symm k) = ix2 k q := funext fun ax => Fin.ext (by
    match ax with
    | ⟨0, _⟩ => exact (rhs_sample _ _).trans hk
    | ⟨1, _⟩ => exact rhs_col _ _)
  rw [el, er]

/-! ## The four payloads at an entry -/

/-- The age block plus the connection bit. -/
theorem age_at (x1 : Vec Ideal S512x512 .f32) (x2 : Vec Ideal S512x512 .i32) (i : S512x512.Idx) (b : BitVec 1) (hb : x2 i = b.setWidth 32) :
    k0_pay2 (F := Ideal) x1 (k0_pay11 x2) i = newAge (x1 i) b := by
  simp only [k0_pay2, k0_pay11, k0_pay9]
  simp only [addf, sitofp, extui, cmpi, constantI]
  rw [hb, word_ne_zero, conn_val]
  rfl

/-- The cost rate times the weight's magnitude times the mean's magnitude. -/
theorem energy_at (x0 : Vec Ideal S512x512 .f32) (x7 : Vec Ideal S1x512 .f32) (p q : Fin 512) :
    k0_pay1 (F := Ideal) (k0_pay15 x0) (k0_pay16 x7) (ix2 p q) = energy (x0 (ix2 p q)) (x7 (ix2 (0 : Fin 1) q)) := by
  simp only [k0_pay1, k0_pay15, k0_pay16, k0_pay13, k0_pay12]
  simp only [mulf, absf, broadcast_apply, shapeCast_self, broadcastTo_1b_ab_apply]
  rfl

/-- The new weight. -/
theorem weight_at (x0 x3 : Vec Ideal S512x512 .f32) (x2 : Vec Ideal S512x512 .i32) (x4 x5 : Vec Ideal S512x64 .f32)
    (x6 : Vec Ideal S64x512 .f32) (x7 : Vec Ideal S1x512 .f32) (p q : Fin 512) (b : BitVec 1) (hb : x2 (ix2 p q) = b.setWidth 32) :
    k0_pay7 (F := Ideal) (k0_pay9 x2) x3 (k0_pay10 x5) x6 (k0_pay14 x0 x2 x4 x6 x7) (ix2 p q)
      = newWeight (x0 (ix2 p q)) (∑ k : Fin 64, x4 (ix2 p k) * x6 (ix2 k q)) (x7 (ix2 (0 : Fin 1) q))
          (∑ k : Fin 64, x5 (ix2 p k) * x6 (ix2 k q)) (x3 (ix2 p q)) b := by
  simp only [k0_pay7, k0_pay6, k0_pay5, k0_pay4, k0_pay3, k0_pay9, k0_pay10, k0_pay11, k0_pay12, k0_pay13, k0_pay14]
  simp only [select, mulf, addf, absf, cmpf, andi, ori, xori, cmpi, extui, sitofp, maximumf, minimumf, broadcast_apply, constantI,
    shapeCast_self, blockProduct_apply, broadcastTo_1b_ab_apply]
  rw [hb]
  simp only [word_ne_zero, xor_one, conn_val, scale_eq_div']
  rfl

/-- The new connection bit, widened to a word. -/
theorem mask_at (x0 x3 : Vec Ideal S512x512 .f32) (x2 : Vec Ideal S512x512 .i32) (x4 x5 : Vec Ideal S512x64 .f32)
    (x6 : Vec Ideal S64x512 .f32) (x7 : Vec Ideal S1x512 .f32) (p q : Fin 512) (b : BitVec 1) (hb : x2 (ix2 p q) = b.setWidth 32) :
    k0_pay8 (F := Ideal) (k0_pay9 x2) x3 (k0_pay10 x5) x6 (k0_pay14 x0 x2 x4 x6 x7) (ix2 p q)
      = (newMask (x0 (ix2 p q)) (∑ k : Fin 64, x4 (ix2 p k) * x6 (ix2 k q)) (x7 (ix2 (0 : Fin 1) q))
          (∑ k : Fin 64, x5 (ix2 p k) * x6 (ix2 k q)) (x3 (ix2 p q)) b).setWidth 32 := by
  simp only [k0_pay8, k0_pay6, k0_pay5, k0_pay4, k0_pay3, k0_pay9, k0_pay10, k0_pay11, k0_pay12, k0_pay13, k0_pay14]
  simp only [select, mulf, addf, absf, cmpf, andi, ori, xori, cmpi, extui, sitofp, maximumf, minimumf, broadcast_apply, constantI,
    shapeCast_self, blockProduct_apply, broadcastTo_1b_ab_apply]
  rw [hb]
  simp only [word_ne_zero, xor_one, conn_val, scale_eq_div']
  rfl

end Cert.KernelIdeal.Point

end
-- ==== Proof.KernelArrays.lean ====
/-
  The kernel's four result arrays after the run.

  At every grid point the body leaves in each output block, entry by entry, the synapse functions of the input blocks'
  entries; read through the blocks' places in the arrays, that is block (I, J) of ONE function of the argument arrays: the
  new weights, the energy cost, the new age, and the new connection bits widened to words. The 64 blocks tile each
  4096 × 4096 array, so each array ends holding that function. The host stretch after the region compares the words with zero,
  which gives the connection bits back.
-/
import proofs.«131572_j3633542332471_1_alg».proof.Proof.KernelBlocks
import proofs.«131572_j3633542332471_1_alg».proof.Proof.KernelPoint

noncomputable section

namespace Cert.KernelIdeal.Arrays

open Cert.KernelIdeal Cert.KernelIdeal.Gen Cert.KernelIdeal.Blocks Cert.KernelIdeal.Point
open Idealize.ShloMosaic Idealize.ShloMosaic.TcCoe Idealize.SL.Sem
open Idealize.ShloMosaic.ValueIdx Cert.Plasticity
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The results, as functions of the arguments -/

abbrev weightsNew (c : Dev nD) : S4096x4096.Idx → EReal :=
  weightsOut (pre m c) (post m c) (contrib m c) (weights m c) (rand m c) (conn m c)
abbrev energyNew (c : Dev nD) : S4096x4096.Idx → EReal := energyOut (pre m c) (weights m c)
abbrev ageNew (c : Dev nD) : S4096x4096.Idx → EReal := ageOut (age m c) (conn m c)
abbrev maskNew (c : Dev nD) : S4096x4096.Idx → BitVec 1 :=
  maskOut (pre m c) (post m c) (contrib m c) (weights m c) (rand m c) (conn m c)
/-- The connection bits as the words the kernel writes. -/
abbrev maskWords (c : Dev nD) : S4096x4096.Idx → BitVec 32 := fun i => (maskNew m c i).setWidth 32

/-! ## Where an output block's entry sits -/

theorem emb8 (t : Fin cfg0.N) (p q : Fin 512) (P Q : Fin 4096)
    (hP : P.val = win0_8.index t (0 : Fin 2) * 512 + p.val) (hQ : Q.val = win0_8.index t (1 : Fin 2) * 512 + q.val) :
    ((cfg0.win 8).blk t).view.emb (ix2 p q) = ix2 P Q := funext fun a => Fin.ext (by
  match a with
  | ⟨0, _⟩ => show win0_8.index t (0 : Fin 2) * 512 + 1 * p.val = P.val; omega
  | ⟨1, _⟩ => show win0_8.index t (1 : Fin 2) * 512 + 1 * q.val = Q.val; omega)

theorem emb9 (t : Fin cfg0.N) (p q : Fin 512) (P Q : Fin 4096)
    (hP : P.val = win0_8.index t (0 : Fin 2) * 512 + p.val) (hQ : Q.val = win0_8.index t (1 : Fin 2) * 512 + q.val) :
    ((cfg0.win 9).blk t).view.emb (ix2 p q) = ix2 P Q := funext fun a => Fin.ext (by
  obtain ⟨e0, e1, -⟩ := idx_outputs t
  match a with
  | ⟨0, _⟩ => show win0_9.index t (0 : Fin 2) * 512 + 1 * p.val = P.val; omega
  | ⟨1, _⟩ => show win0_9.index t (1 : Fin 2) * 512 + 1 * q.val = Q.val; omega)

theorem emb10 (t : Fin cfg0.N) (p q : Fin 512) (P Q : Fin 4096)
    (hP : P.val = win0_8.index t (0 : Fin 2) * 512 + p.val) (hQ : Q.val = win0_8.index t (1 : Fin 2) * 512 + q.val) :
    ((cfg0.win 10).blk t).view.emb (ix2 p q) = ix2 P Q := funext fun a => Fin.ext (by
  obtain ⟨-, -, e0, e1, -⟩ := idx_outputs t
  match a with
  | ⟨0, _⟩ => show win0_10.index t (0 : Fin 2) * 512 + 1 * p.val = P.val; omega
  | ⟨1, _⟩ => show win0_10.index t (1 : Fin 2) * 512 + 1 * q.val = Q.val; omega)

theorem emb11 (t : Fin cfg0.N) (p q : Fin 512) (P Q : Fin 4096)
    (hP : P.val = win0_8.index t (0 : Fin 2) * 512 + p.val) (hQ : Q.val = win0_8.index t (1 : Fin 2) * 512 + q.val) :
    ((cfg0.win 11).blk t).view.emb (ix2 p q) = ix2 P Q := funext fun a => Fin.ext (by
  obtain ⟨-, -, -, -, e0, e1, -⟩ := idx_outputs t
  match a with
  | ⟨0, _⟩ => show win0_11.index t (0 : Fin 2) * 512 + 1 * p.val = P.val; omega
  | ⟨1, _⟩ => show win0_11.index t (1 : Fin 2) * 512 + 1 * q.val = Q.val; omega)

/-- The entry of the arrays under entry (p, q) of the blocks at point `t`. -/
theorem place (t : Fin cfg0.N) (p q : Fin 512) : ∃ P Q : Fin 4096,
    P.val = win0_8.index t (0 : Fin 2) * 512 + p.val ∧ Q.val = win0_8.index t (1 : Fin 2) * 512 + q.val := by
  obtain ⟨-, -, -, -, -, -, b0, b1⟩ := idx_outputs t
  exact ⟨⟨win0_8.index t (0 : Fin 2) * 512 + p.val, by omega⟩, ⟨win0_8.index t (1 : Fin 2) * 512 + q.val, by omega⟩, rfl, rfl⟩

/-! ## What each point writes back -/

/-- The weight block written at point `t` is block `t` of the new weights. -/
theorem flushed8_eq (c : Dev nD) (t : Fin cfg0.N) :
    (dats m 0 c).flushed 8 t = ((cfg0.win 8).blk t).view.read (Elt Ideal) (weightsNew m c) := by
  show (cfg0.win 8).cut (grid0.coords t) ((dats m 0 c).after 8 t) = _
  rw [after0_8]
  unfold out0_8
  rw [View.canon_unit_zero hz]
  simp only [View.ld_unit_zero (S := S512x512) hz, View.ld_unit_zero (S := S512x64) hz, View.ld_unit_zero (S := S64x512) hz, View.ld_unit_zero (S := S1x512) hz]
  funext j
  obtain ⟨p, q, rfl⟩ : ∃ (p q : Fin 512), j = ix2 p q := ⟨j 0, j 1, eq_ix2 j⟩
  obtain ⟨P, Q, hP, hQ⟩ := place t p q
  show k0_pay7 (F := Ideal) (k0_pay9 (iblk m c 2 t)) (iblk m c 3 t) (k0_pay10 (iblk m c 5 t)) (iblk m c 6 t)
      (k0_pay14 (iblk m c 0 t) (iblk m c 2 t) (iblk m c 4 t) (iblk m c 6 t) (iblk m c 7 t)) (ix2 p q)
    = weightsNew m c (((cfg0.win 8).blk t).view.emb (ix2 p q))
  rw [emb8 t p q P Q hP hQ]
  refine (weight_at (iblk m c 0 t) (iblk m c 3 t) (iblk m c 2 t) (iblk m c 4 t) (iblk m c 5 t) (iblk m c 6 t) (iblk m c 7 t) p q
    (conn m c (ix2 P Q)) (connBlk_at m c t p q P Q hP hQ)).trans ?_
  rw [weightBlk_at m c t p q P Q hP hQ, randBlk_at m c t p q P Q hP hQ, meanBlk_at m c t q Q hQ]
  simp only [fun k => pcBlk_at m c t p k P hP, fun k => postBlk_at m c t p k P hP, fun k => preBlk_at m c t k q Q hQ]
  rfl

/-- The energy block written at point `t` is block `t` of the energy cost. -/
theorem flushed9_eq (c : Dev nD) (t : Fin cfg0.N) :
    (dats m 0 c).flushed 9 t = ((cfg0.win 9).blk t).view.read (Elt Ideal) (energyNew m c) := by
  show (cfg0.win 9).cut (grid0.coords t) ((dats m 0 c).after 9 t) = _
  rw [after0_9]
  unfold out0_9
  rw [View.canon_unit_zero hz]
  simp only [View.ld_unit_zero (S := S512x512) hz, View.ld_unit_zero (S := S1x512) hz]
  funext j
  obtain ⟨p, q, rfl⟩ : ∃ (p q : Fin 512), j = ix2 p q := ⟨j 0, j 1, eq_ix2 j⟩
  obtain ⟨P, Q, hP, hQ⟩ := place t p q
  show k0_pay1 (F := Ideal) (k0_pay15 (iblk m c 0 t)) (k0_pay16 (iblk m c 7 t)) (ix2 p q)
    = energyNew m c (((cfg0.win 9).blk t).view.emb (ix2 p q))
  rw [emb9 t p q P Q hP hQ]
  refine (energy_at (iblk m c 0 t) (iblk m c 7 t) p q).trans ?_
  rw [weightBlk_at m c t p q P Q hP hQ, meanBlk_at m c t q Q hQ]
  rfl

/-- The age block written at point `t` is block `t` of the new age. -/
theorem flushed10_eq (c : Dev nD) (t : Fin cfg0.N) :
    (dats m 0 c).flushed 10 t = ((cfg0.win 10).blk t).view.read (Elt Ideal) (ageNew m c) := by
  show (cfg0.win 10).cut (grid0.coords t) ((dats m 0 c).after 10 t) = _
  rw [after0_10]
  unfold out0_10
  rw [View.canon_unit_zero hz]
  simp only [View.ld_unit_zero (S := S512x512) hz]
  funext j
  obtain ⟨p, q, rfl⟩ : ∃ (p q : Fin 512), j = ix2 p q := ⟨j 0, j 1, eq_ix2 j⟩
  obtain ⟨P, Q, hP, hQ⟩ := place t p q
  show k0_pay2 (F := Ideal) (iblk m c 1 t) (k0_pay11 (iblk m c 2 t)) (ix2 p q)
    = ageNew m c (((cfg0.win 10).blk t).view.emb (ix2 p q))
  rw [emb10 t p q P Q hP hQ]
  refine (age_at (iblk m c 1 t) (iblk m c 2 t) (ix2 p q) (conn m c (ix2 P Q)) (connBlk_at m c t p q P Q hP hQ)).trans ?_
  rw [ageBlk_at m c t p q P Q hP hQ]
  rfl

/-- The connection-word block written at point `t` is block `t` of the new connection bits as words. -/
theorem flushed11_eq (c : Dev nD) (t : Fin cfg0.N) :
    (dats m 0 c).flushed 11 t = ((cfg0.win 11).blk t).view.read (Elt Ideal) (maskWords m c) := by
  show (cfg0.win 11).cut (grid0.coords t) ((dats m 0 c).after 11 t) = _
  rw [after0_11]
  unfold out0_11
  rw [View.canon_unit_zero hz]
  simp only [View.ld_unit_zero (S := S512x512) hz, View.ld_unit_zero (S := S512x64) hz, View.ld_unit_zero (S := S64x512) hz, View.ld_unit_zero (S := S1x512) hz]
  funext j
  obtain ⟨p, q, rfl⟩ : ∃ (p q : Fin 512), j = ix2 p q := ⟨j 0, j 1, eq_ix2 j⟩
  obtain ⟨P, Q, hP, hQ⟩ := place t p q
  show k0_pay8 (F := Ideal) (k0_pay9 (iblk m c 2 t)) (iblk m c 3 t) (k0_pay10 (iblk m c 5 t)) (iblk m c 6 t)
      (k0_pay14 (iblk m c 0 t) (iblk m c 2 t) (iblk m c 4 t) (iblk m c 6 t) (iblk m c 7 t)) (ix2 p q)
    = maskWords m c (((cfg0.win 11).blk t).view.emb (ix2 p q))
  rw [emb11 t p q P Q hP hQ]
  refine (mask_at (iblk m c 0 t) (iblk m c 3 t) (iblk m c 2 t) (iblk m c 4 t) (iblk m c 5 t) (iblk m c 6 t) (iblk m c 7 t) p q
    (conn m c (ix2 P Q)) (connBlk_at m c t p q P Q hP hQ)).trans ?_
  rw [weightBlk_at m c t p q P Q hP hQ, randBlk_at m c t p q P Q hP hQ, meanBlk_at m c t q Q hQ]
  simp only [fun k => pcBlk_at m c t p k P hP, fun k => postBlk_at m c t p k P hP, fun k => preBlk_at m c t k q Q hQ]
  rfl

/-! ## The blocks tile the arrays -/

theorem mem_blk8 (t : Fin cfg0.N) (i : S4096x4096.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v8_0).slice (win0_8.rect t)).set ↔ _
  rw [View.set_slice_whole, Rect.mem_set_unit]
  exact Iff.rfl
theorem mem_blk9 (t : Fin cfg0.N) (i : S4096x4096.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v8_1).slice (win0_9.rect t)).set ↔ _
  rw [View.set_slice_whole, Rect.mem_set_unit]
  exact Iff.rfl
theorem mem_blk10 (t : Fin cfg0.N) (i : S4096x4096.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v8_2).slice (win0_10.rect t)).set ↔ _
  rw [View.set_slice_whole, Rect.mem_set_unit]
  exact Iff.rfl
theorem mem_blk11 (t : Fin cfg0.N) (i : S4096x4096.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v8_3).slice (win0_11.rect t)).set ↔ _
  rw [View.set_slice_whole, Rect.mem_set_unit]
  exact Iff.rfl

/-- The point whose block index is (row / 512, column / 512). -/
theorem point_of (i : S4096x4096.Idx) : ∃ t : Fin cfg0.N,
    win0_8.index t (0 : Fin 2) = (i 0).val / 512 ∧ win0_8.index t (1 : Fin 2) = (i 1).val / 512 := by
  have h0 : (i 0).val < 4096 := (i 0).isLt
  have h1 : (i 1).val < 4096 := (i 1).isLt
  exact idx_onto ⟨(i 0).val / 512, by omega⟩ ⟨(i 1).val / 512, by omega⟩

theorem cover8 (i : S4096x4096.Idx) : ∃ t : Fin cfg0.N, (cfg0.win 8).flush t = true ∧ i ∈ ((cfg0.win 8).blk t).view.set := by
  obtain ⟨t, q0, q1⟩ := point_of i
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega
theorem cover9 (i : S4096x4096.Idx) : ∃ t : Fin cfg0.N, (cfg0.win 9).flush t = true ∧ i ∈ ((cfg0.win 9).blk t).view.set := by
  obtain ⟨t, q0, q1⟩ := point_of i
  obtain ⟨e0, e1, -⟩ := idx_outputs t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega
theorem cover10 (i : S4096x4096.Idx) : ∃ t : Fin cfg0.N, (cfg0.win 10).flush t = true ∧ i ∈ ((cfg0.win 10).blk t).view.set := by
  obtain ⟨t, q0, q1⟩ := point_of i
  obtain ⟨-, -, e0, e1, -⟩ := idx_outputs t
  refine ⟨t, flush0_10 t, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega
theorem cover11 (i : S4096x4096.Idx) : ∃ t : Fin cfg0.N, (cfg0.win 11).flush t = true ∧ i ∈ ((cfg0.win 11).blk t).view.set := by
  obtain ⟨t, q0, q1⟩ := point_of i
  obtain ⟨-, -, -, -, e0, e1, -⟩ := idx_outputs t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-! ## The arrays after the region -/

theorem final8 (c : Dev nD) : (dats m 0 c).arrAt 8 cfg0.N = weightsNew m c :=
  (dats m 0 c).arrAt_eq_of_cover 8 (weightsNew m c) (fun t _ => flushed8_eq m c t) cover8
theorem final9 (c : Dev nD) : (dats m 0 c).arrAt 9 cfg0.N = energyNew m c :=
  (dats m 0 c).arrAt_eq_of_cover 9 (energyNew m c) (fun t _ => flushed9_eq m c t) cover9
theorem final10 (c : Dev nD) : (dats m 0 c).arrAt 10 cfg0.N = ageNew m c :=
  (dats m 0 c).arrAt_eq_of_cover 10 (ageNew m c) (fun t _ => flushed10_eq m c t) cover10
theorem final11 (c : Dev nD) : (dats m 0 c).arrAt 11 cfg0.N = maskWords m c :=
  (dats m 0 c).arrAt_eq_of_cover 11 (maskWords m c) (fun t _ => flushed11_eq m c t) cover11

/-! ## The host stretch after the region -/

/-- Comparing the connection words with zero gives the connection bits. -/
theorem tail_mask (c : Dev nD) :
    Pipeline.afterTail₀ cfgs (dats m) 0 (V0 m) [hostOps1] c main_v11 = maskNew m c := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v8_3)
      = maskWords m c :=
    (Pipeline.withArrays_arr spec0 launch0.win.arr_inj c _ _ 11).trans (final11 m c)
  rw [e]
  funext i
  show IntOp.cmpi .ne ((maskNew m c i).setWidth 32) (broadcastInDim S4096x4096 ![] bcast_S_S4096x4096 (constantI S_ 32 0#32) i) = _
  rw [broadcastInDim_apply _ bcast_S_S4096x4096 _ i ix0 (fun a => a.elim0)]
  exact word_ne_zero _

/-! ## The run, read -/

/-- Every weakly fair execution of the kernel's program ends with the four results at the synapse functions of the
    arguments, and the arguments as launched. -/
theorem run : θ_run defs (onTc (τ := τ) (main (F := Ideal))) ⟨m, fun _ => 0, ρ⟩ fun r => ∀ c : Dev nD,
      r.2.mem ((c.tc : Thread nD τ).loc main_v8_0) = weightsNew m c
      ∧ r.2.mem ((c.tc : Thread nD τ).loc main_v8_1) = energyNew m c
      ∧ r.2.mem ((c.tc : Thread nD τ).loc main_v8_2) = ageNew m c
      ∧ r.2.mem ((c.tc : Thread nD τ).loc main_v11) = maskNew m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 8).trans (final8 m c), ((h c).1 9).trans (final9 m c), ((h c).1 10).trans (final10 m c),
      ((h c).2 main_v11 (Pipeline.mem_restRefs_of main_v11 (by decide) (by decide))).trans (tail_mask m c),
      ((h c).1 6).trans (((dats m 0 c).arrAt_in 6 rfl _).trans ((A_eq m c 6).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c)))⟩)
    (run_main m ρ)

end Cert.KernelIdeal.Arrays

end
-- ==== Proof.RefSide.lean ====
/-
  The reference's four results, read one entry at a time, are the synapse functions of the argument arrays: its two
  contractions over the batch axis are the Hebbian and the correlation sums, its column mean (reduced, divided by 64, and
  broadcast along the rows) is the presynaptic mean, and every other operation acts entry by entry.
-/
import proofs.«131572_j3633542332471_1_alg».proof.Proof.Gen.ReferenceIdeal.Read
import proofs.«131572_j3633542332471_1_alg».proof.Proof.Consts

noncomputable section

namespace Cert.ReferenceIdeal.RefValue

open Cert.ReferenceIdeal Cert.ReferenceIdeal.Gen Cert.ReferenceIdeal.Read Idealize.ShloMosaic Idealize.ShloMosaic.ValueIdx Cert.Plasticity

/-- The contraction of post · contrib against pre over the batch axis is the Hebbian sum. -/
theorem heb_apply (x0 x1 x2 : (⟨S64x4096, .f32⟩ : BufTy).Contents (Elt Ideal)) (p q : Fin 4096) :
    val_main_v2 (F := Ideal) x0 x1 x2 (ix2 p q) = hebSum x1 x2 x0 p q := by
  rw [val_main_v2_apply]
  unfold hebSum
  refine Finset.sum_congr rfl fun k _ => ?_
  rw [val_main_v1_apply]
  have el : lidx_main_v2 (ix2 p q) k = ix2 k p := funext fun a => Fin.ext (by match a with | ⟨0, _⟩ => rfl | ⟨1, _⟩ => rfl)
  have er : ridx_main_v2 (ix2 p q) k = ix2 k q := funext fun a => Fin.ext (by match a with | ⟨0, _⟩ => rfl | ⟨1, _⟩ => rfl)
  rw [el, er]
  rfl

/-- The contraction of post against pre over the batch axis is the correlation sum. -/
theorem cor_apply (x0 x1 : (⟨S64x4096, .f32⟩ : BufTy).Contents (Elt Ideal)) (p q : Fin 4096) :
    val_main_v28 (F := Ideal) x0 x1 (ix2 p q) = corSum x1 x0 p q := by
  rw [val_main_v28_apply]
  unfold corSum
  refine Finset.sum_congr rfl fun k _ => ?_
  have el : lidx_main_v28 (ix2 p q) k = ix2 k p := funext fun a => Fin.ext (by match a with | ⟨0, _⟩ => rfl | ⟨1, _⟩ => rfl)
  have er : ridx_main_v28 (ix2 p q) k = ix2 k q := funext fun a => Fin.ext (by match a with | ⟨0, _⟩ => rfl | ⟨1, _⟩ => rfl)
  rw [el, er]

/-- The column sums divided by 64, at column q, are the presynaptic mean. -/
theorem mean_at (x0 : (⟨S64x4096, .f32⟩ : BufTy).Contents (Elt Ideal)) (j : S4096.Idx) (q : Fin 4096) (hj : j = ix1 q) :
    val_main_v7 (F := Ideal) x0 j = avgPre x0 q := by
  subst hj
  rw [val_main_v7_apply, val_main_v5_apply, val_main_v6_apply, val_main_cst_1_apply, val_main_cst_0_apply]
  unfold avgPre
  have e : ∀ k : Fin 64, idx_main_v5 (ix1 q) k = ix2 k q := fun k =>
    funext fun a => Fin.ext (by match a with | ⟨0, _⟩ => rfl | ⟨1, _⟩ => rfl)
  simp only [e]
  rfl

/-- The mean broadcast along the rows, at (p, q). -/
theorem mean_apply (x0 : (⟨S64x4096, .f32⟩ : BufTy).Contents (Elt Ideal)) (p q : Fin 4096) :
    val_main_v13 (F := Ideal) x0 (ix2 p q) = avgPre x0 q := by
  rw [val_main_v13_apply, val_main_v12_apply]
  exact mean_at x0 _ q (funext fun a => Fin.ext (by match a with | ⟨0, _⟩ => rfl))

/-- The mean's magnitude broadcast along the rows, at (p, q). -/
theorem meanMag_apply (x0 : (⟨S64x4096, .f32⟩ : BufTy).Contents (Elt Ideal)) (p q : Fin 4096) :
    val_main_v25 (F := Ideal) x0 (ix2 p q) = mag (avgPre x0 q) := by
  rw [val_main_v25_apply, val_main_v24_apply, val_main_v23_apply,
    mean_at x0 _ q (funext fun a => Fin.ext (by match a with | ⟨0, _⟩ => rfl))]
  rfl

/-- The first result is the new weights. -/
theorem weights_eq (x0 x1 x2 : (⟨S64x4096, .f32⟩ : BufTy).Contents (Elt Ideal)) (x3 x6 : (⟨S4096x4096, .f32⟩ : BufTy).Contents (Elt Ideal))
    (x5 : (⟨S4096x4096, .i1⟩ : BufTy).Contents (Elt Ideal)) :
    val_main_v44 (F := Ideal) x0 x1 x2 x3 x5 x6 = weightsOut x0 x1 x2 x3 x6 x5 := by
  funext i
  obtain ⟨p, q, rfl⟩ : ∃ (p q : Fin 4096), i = ix2 p q := ⟨i 0, i 1, eq_ix2 i⟩
  simp only [val_main_v44_apply, val_main_v43_apply, val_main_cst_10_apply, val_main_v42_apply, val_main_v41_apply, val_main_v40_apply,
    val_main_cst_9_apply, val_main_v39_apply, val_main_v38_apply, val_main_v37_apply, val_main_v36_apply, val_main_v35_apply,
    val_main_cst_8_apply, val_main_v34_apply, val_main_v33_apply, val_main_v32_apply, val_main_v31_apply, val_main_cst_7_apply,
    val_main_v30_apply, val_main_v29_apply, val_main_cst_6_apply, cor_apply, val_main_v19_apply, val_main_v18_apply,
    val_main_call0_v4_apply, val_main_call0_v3_apply, val_main_cst_4_apply, val_main_call0_v2_apply, val_main_call0_v1_apply,
    val_main_call0_v0_apply, val_main_cst_3_apply, val_main_v17_apply, val_main_v16_apply, val_main_v15_apply, val_main_v14_apply,
    mean_apply, val_main_v11_apply, val_main_v10_apply, val_main_v9_apply, val_main_cst_2_apply, val_main_v8_apply,
    val_main_v4_apply, val_main_v3_apply, val_main_cst_apply, heb_apply, val_main_v0_apply]
  rfl

/-- The fourth result is the new connection bits. -/
theorem mask_eq (x0 x1 x2 : (⟨S64x4096, .f32⟩ : BufTy).Contents (Elt Ideal)) (x3 x6 : (⟨S4096x4096, .f32⟩ : BufTy).Contents (Elt Ideal))
    (x5 : (⟨S4096x4096, .i1⟩ : BufTy).Contents (Elt Ideal)) :
    val_main_v46 (F := Ideal) x0 x1 x2 x3 x5 x6 = maskOut x0 x1 x2 x3 x6 x5 := by
  funext i
  obtain ⟨p, q, rfl⟩ : ∃ (p q : Fin 4096), i = ix2 p q := ⟨i 0, i 1, eq_ix2 i⟩
  simp only [val_main_v46_apply, val_main_v45_apply, val_main_v42_apply, val_main_v41_apply, val_main_v40_apply,
    val_main_cst_9_apply, val_main_v39_apply, val_main_v38_apply, val_main_v37_apply, val_main_v36_apply, val_main_v35_apply,
    val_main_cst_8_apply, val_main_v34_apply, val_main_v33_apply, val_main_v32_apply, val_main_v31_apply, val_main_cst_7_apply,
    val_main_v30_apply, val_main_v29_apply, val_main_cst_6_apply, cor_apply, val_main_v19_apply, val_main_v18_apply,
    val_main_call0_v4_apply, val_main_call0_v3_apply, val_main_cst_4_apply, val_main_call0_v2_apply, val_main_call0_v1_apply,
    val_main_call0_v0_apply, val_main_cst_3_apply, val_main_v17_apply, val_main_v16_apply, val_main_v15_apply, val_main_v14_apply,
    mean_apply, val_main_v11_apply, val_main_v10_apply, val_main_v9_apply, val_main_cst_2_apply, val_main_v8_apply,
    val_main_v4_apply, val_main_v3_apply, val_main_cst_apply, heb_apply, val_main_v0_apply]
  rfl

/-- The second result is the energy cost. -/
theorem energy_eq (x0 : (⟨S64x4096, .f32⟩ : BufTy).Contents (Elt Ideal)) (x3 : (⟨S4096x4096, .f32⟩ : BufTy).Contents (Elt Ideal)) :
    val_main_v26 (F := Ideal) x0 x3 = energyOut x0 x3 := by
  funext i
  obtain ⟨p, q, rfl⟩ : ∃ (p q : Fin 4096), i = ix2 p q := ⟨i 0, i 1, eq_ix2 i⟩
  simp only [val_main_v26_apply, val_main_v22_apply, val_main_v21_apply, val_main_cst_5_apply, val_main_v20_apply, meanMag_apply]
  rfl

/-- The third result is the new age. -/
theorem age_eq (x4 : (⟨S4096x4096, .f32⟩ : BufTy).Contents (Elt Ideal)) (x5 : (⟨S4096x4096, .i1⟩ : BufTy).Contents (Elt Ideal)) :
    val_main_v27 (F := Ideal) x4 x5 = ageOut x4 x5 := by
  funext i
  simp only [val_main_v27_apply, val_main_v0_apply]
  rfl

end Cert.ReferenceIdeal.RefValue

end
-- ==== Proof.lean ====
/-
  The claim: the plasticity kernel and its reference agree over the extended reals.

  Both programs compute, for every synapse (p, q), the same functions of the same numbers (Proof/Spec.lean): the Hebbian and
  correlation sums over the 64 samples, the presynaptic column mean, and then one entry-by-entry chain. The kernel computes
  them block by block — two [512, 64] × [64, 512] products per grid point against the reference's two contractions over
  the batch axis, which at the extended reals are the same sums of products; it scales the correlation by the word 1/64 where
  the reference divides by the word 64, equal on every extended real; and it carries the connection bits as 32-bit words,
  compared with zero on the way in and on the way out. No step needs finiteness of the inputs.
  The three frames are the generated ones (the reference's is its generated run with the results dropped); nothing was
  rewritten by the idealization, so there is nothing to preserve.
-/
import proofs.«131572_j3633542332471_1_alg».proof.Defs
import proofs.«131572_j3633542332471_1_alg».proof.Proof.Gen.Kernel
import proofs.«131572_j3633542332471_1_alg».proof.Proof.Gen.Kernel.Skeleton
import proofs.«131572_j3633542332471_1_alg».proof.Proof.Gen.Kernel.Launch
import proofs.«131572_j3633542332471_1_alg».proof.Proof.Gen.Kernel.Points
import proofs.«131572_j3633542332471_1_alg».proof.Proof.Gen.Kernel.Frame
import proofs.«131572_j3633542332471_1_alg».proof.Proof.Gen.KernelIdeal
import proofs.«131572_j3633542332471_1_alg».proof.Proof.Gen.KernelIdeal.Skeleton
import proofs.«131572_j3633542332471_1_alg».proof.Proof.Gen.KernelIdeal.Launch
import proofs.«131572_j3633542332471_1_alg».proof.Proof.Gen.KernelIdeal.Points
import proofs.«131572_j3633542332471_1_alg».proof.Proof.Gen.KernelIdeal.Frame
import proofs.«131572_j3633542332471_1_alg».proof.Proof.Gen.ReferenceIdeal
import proofs.«131572_j3633542332471_1_alg».proof.Proof.Gen.Pre_finite_inputs
import proofs.«131572_j3633542332471_1_alg».proof.Proof.Gen.ReferenceIdeal.Run
import proofs.«131572_j3633542332471_1_alg».proof.Proof.Gen.ReferenceIdeal.Read
import proofs.«131572_j3633542332471_1_alg».proof.Proof.KernelArrays
import proofs.«131572_j3633542332471_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- Both programs end with the four results at the synapse functions of the (agreeing) arguments. -/
theorem algebraic : Cert.algebraic_KernelIdeal_ReferenceIdeal := by
  intro m ρ m' ρ' _ hagree
  refine ⟨fun c => Cert.KernelIdeal.Arrays.weightsNew m c, fun c => Cert.KernelIdeal.Arrays.energyNew m c,
    fun c => Cert.KernelIdeal.Arrays.ageNew m c, fun c => Cert.KernelIdeal.Arrays.maskNew m c,
    Cert.KernelIdeal.Arrays.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5, a6⟩ := hagree c
  refine ⟨h0.trans ?_, h1.trans ?_, h2.trans ?_, h3.trans ?_, hargs⟩
  · rw [Cert.ReferenceIdeal.Read.val_main_v44_eq, Cert.ReferenceIdeal.RefValue.weights_eq, a0, a1, a2, a3, a5, a6]
  · rw [Cert.ReferenceIdeal.Read.val_main_v26_eq, Cert.ReferenceIdeal.RefValue.energy_eq, a0, a3]
  · rw [Cert.ReferenceIdeal.Read.val_main_v27_eq, Cert.ReferenceIdeal.RefValue.age_eq, a4, a5]
  · rw [Cert.ReferenceIdeal.Read.val_main_v46_eq, Cert.ReferenceIdeal.RefValue.mask_eq, a0, a1, a2, a3, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
